-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x8192 : Shape := ⟨2, ![64, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_

variable [Facts]

def fn {F : FTy → Type} [FloatOps F] (main_arg0 : FVec F S8192x64 .f32) (main_arg1 : FVec F S64x8192 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x8192 .f32 := Host.absf main_arg1
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  main_v8
-- ==== Kernel.lean ====
abbrev S8192x64 : Shape := ⟨2, ![8192, 64]⟩
abbrev S64x8192 : Shape := ⟨2, ![64, 8192]⟩
abbrev S8192x8192 : Shape := ⟨2, ![8192, 8192]⟩
abbrev S1024x64 : Shape := ⟨2, ![1024, 64]⟩
abbrev S64x2048 : Shape := ⟨2, ![64, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S64x8192, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S64x2048, .f32⟩
  | .local _ .vmem, ⟨3, _⟩ => ⟨S64x2048, .f32⟩
  | .local _ .vmem, ⟨4, _⟩ => ⟨S1024x2048, .f32⟩
  | .local _ .vmem, ⟨5, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  inb_S1024x2048_S1024x2048_0_0 : ∀ a, (![0, 0] : Fin 2 → Nat) a + S1024x2048.size a ≤ S1024x2048.size a
  h_S1024x2048 : 0 < S1024x2048.numel
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x8192.size a
  hwx0_1 : ∀ i : grid0.Coords, EltTy.bits .f32 = 32 ∨ (Rect.block (s := S64x8192) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S64x8192 : Shape := ⟨2, ![64, 8192]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S64x8192, .f32⟩
  | .hbm, ⟨2, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Product.lean ====
/-
  The function both programs compute: the product of an 8192×64 matrix by a 64×8192 matrix over the extended
  reals. Entry (r, s) of the result is the sum over the 64 contracted coordinates c of A(r, c) · B(c, s).
  Nothing here depends on a program; both sides are later shown to end at this one function of the arguments.
-/
import Idealize.ShloMosaic.PureOps.Ideal
import Idealize.ShloMosaic.Lib.ValueIdx

noncomputable section

open scoped BigOperators

namespace Cert.Product

open Idealize.ShloMosaic Idealize.ShloMosaic.ValueIdx

/-- The matrix product A · B, entry by entry: entry i = (r, s) is Σ_c A(r, c) · B(c, s), c over the 64 columns of A
    (the 64 rows of B). -/
def prod (A : FVec Ideal ⟨2, ![8192, 64]⟩ .f32) (B : FVec Ideal ⟨2, ![64, 8192]⟩ .f32) : FVec Ideal ⟨2, ![8192, 8192]⟩ .f32 :=
  fun i => ∑ c : Fin 64, A (ix2 (i 0) c) * B (ix2 c (i 1))

/-- The product read at the entry of row r and column s. -/
theorem prod_apply (A : FVec Ideal ⟨2, ![8192, 64]⟩ .f32) (B : FVec Ideal ⟨2, ![64, 8192]⟩ .f32) (r s : Fin 8192) :
    prod A B (ix2 r s) = ∑ c : Fin 64, A (ix2 r c) * B (ix2 c s) := rfl

end Cert.Product

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Block.lean ====
/-
  The kernel side. The grid has 8 × 4 points; point (i, j) loads the 1024 rows of A starting at row 1024·i (all 64
  columns) and the 2048 columns of B starting at column 2048·j (all 64 rows), multiplies the two blocks into a zero
  accumulator, and writes the 1024×2048 result back as block (i, j) of the output. A change of float format is the
  identity on the extended reals, so the block product at (p, q) is Σ_c Ablk(p, c) · Bblk(c, q), which is entry
  (1024·i + p, 2048·j + q) of the whole product A · B. The 32 blocks tile the 8192×8192 output, so the output ends
  holding A · B.
-/
import proofs.«133202_j38276748542446_1_alg».proof.Proof.Gen.KernelIdeal.Value
import proofs.«133202_j38276748542446_1_alg».proof.Proof.Product
import proofs.«133202_j38276748542446_1_alg».proof.Proof.LibMatmulPlain

noncomputable section

open scoped BigOperators

namespace Cert.KernelIdeal.Block

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The body's stored value at entry (p, q) of the block: the product of the loaded A-block's row p with the loaded
    B-block's column q, summed over the 64 contracted coordinates. The narrowing of both operands to a shorter float
    format changes nothing on the extended reals, and the accumulator starts at zero. -/
theorem stored_apply (x0 : Vec Ideal S1024x64 .f32) (x1 : Vec Ideal S64x2048 .f32) (p : Fin 1024) (q : Fin 2048) :
    k0_pay1 (F := Ideal) x0 x1 (ix2 p q) = ∑ c : Fin 64, x0 (ix2 p c) * x1 (ix2 c q) := by
  unfold k0_pay1
  exact Cert.LibMatmulPlain.matmul_plain_zero_apply (m := 1024) (k := 64) (n := 2048) none x0 x1 p q

/-- Where the three windows' blocks sit at grid point t: A's block has the output block's row index and column index
    0; B's block has row index 0 and the output block's column index; the output's block indices range over 8 × 4. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7
    ∧ win0_2.index t (1 : Fin 2) ≤ 3 :=
  (by decide +kernel : ∀ t : Fin grid0.N, _)

/-- Every one of the 8 × 4 output blocks is some grid point's. -/
theorem block_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- What grid point t writes back is block t of the whole product A · B of the argument arrays. -/
theorem flushed_eq (c : Dev nD) (t : Fin cfg0.N) :
    (dats m 0 c).flushed 2 t
      = ((cfg0.win 2).blk t).view.read (Elt Ideal) (Cert.Product.prod (V m c main_arg0) (V m c main_arg1)) := by
  rw [Cert.KernelIdeal.Value.flushed2]
  unfold out0_2
  rw [View.canon_unit_zero origin]
  simp only [View.ld_unit_zero (S := S1024x64) origin, View.ld_unit_zero (S := S64x2048) origin]
  obtain ⟨e0, e1, e2, e3, -, -⟩ := block_indices t
  funext j
  obtain ⟨p, q, rfl⟩ : ∃ (p : Fin 1024) (q : Fin 2048), j = ix2 p q := ⟨j 0, j 1, eq_ix2 j⟩
  show k0_pay1 (iblk m c 0 t) (iblk m c 1 t) (ix2 p q)
    = Cert.Product.prod (V m c main_arg0) (V m c main_arg1) (((cfg0.win 2).blk t).view.emb (ix2 p q))
  refine (stored_apply (iblk m c 0 t) (iblk m c 1 t) p q).trans ?_
  refine Finset.sum_congr rfl fun k _ => ?_
  have h0 : ((cfg0.win 0).blk t).view.emb (ix2 p k)
      = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 64 + 1 * k.val = k.val; omega
  have h1 : ((cfg0.win 1).blk t).view.emb (ix2 k q)
      = ix2 k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 2048 + 1 * q.val = win0_2.index t (1 : Fin 2) * 2048 + 1 * q.val; omega
  exact congrArg₂ (fun (a b : EReal) => a * b)
    (congrArg (V m c main_arg0 : S8192x64.Idx → EReal) h0) (congrArg (V m c main_arg1 : S64x8192.Idx → EReal) h1)

/-- An entry of the output array lies in point t's block exactly when each coordinate lies in the block's range. -/
theorem mem_block (t : Fin cfg0.N) (i : S8192x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v0).slice (win0_2.rect t)).set ↔ _
  rw [View.set_slice_whole, Rect.mem_set_unit]
  exact Iff.rfl

/-- Every entry (r, s) of the output lies in the block of the point with block indices (r / 1024, s / 2048). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- After the run the output array holds the whole product A · B of the argument arrays. -/
theorem final (c : Dev nD) :
    (dats m 0 c).arrAt 2 cfg0.N = Cert.Product.prod (V m c main_arg0) (V m c main_arg1) :=
  (dats m 0 c).arrAt_eq_of_cover 2 (Cert.Product.prod (V m c main_arg0) (V m c main_arg1))
    (fun t _ => flushed_eq m c t) covered

/-- Every weakly fair execution of the kernel ends with the output at A · B and the arguments unchanged. -/
theorem run : θ_run defs (onTc (τ := τ) (main (F := Ideal))) ⟨m, fun _ => 0, ρ⟩ fun r => ∀ c : Dev nD,
      r.2.mem ((c : Thread nD τ).loc main_v0)
        = Cert.Product.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Block

end
-- ==== Proof.Reference.lean ====
/-
  The reference's run, read: its one host operation is the product of the two argument arrays contracted over
  A's columns and B's rows, which entry by entry is the sum Σ_c A(r, c) · B(c, s) — the function `Product.prod`.
-/
import proofs.«133202_j38276748542446_1_alg».proof.Proof.Gen.ReferenceIdeal.Run
import proofs.«133202_j38276748542446_1_alg».proof.Proof.Product
import Idealize.ShloMosaic.Lib.StackMember

noncomputable section

open scoped BigOperators

namespace Cert.ReferenceIdeal.RefValue

open Cert.ReferenceIdeal Idealize.ShloMosaic Idealize.ShloMosaic.ValueIdx

/-- The host's contraction of A (8192×64) with B (64×8192) over A's second and B's first axis is the matrix
    product: at entry (r, s) it is Σ_c A(r, c) · B(c, s). -/
theorem dot_eq_prod (A : FVec Ideal S8192x64 .f32) (B : FVec Ideal S64x8192 .f32) :
    Host.dotGeneral (F := Ideal) dot_S8192x64_S64x8192_S8192x8192_1_0_0_1_n_n none A B = Cert.Product.prod A B := by
  funext i
  obtain ⟨r, s, rfl⟩ : ∃ (r : Fin 8192) (s : Fin 8192), i = ix2 r s := ⟨i 0, i 1, eq_ix2 i⟩
  exact StackMember.dotGeneral_plain_apply (m := 8192) (k := 64) (n := 8192) none A B r s

end Cert.ReferenceIdeal.RefValue

end
-- ==== Proof.lean ====
/-
  A tiled matrix product against one whole matrix product.

  The kernel multiplies A (8192×64) by B (64×8192) block by block: an 8 × 4 grid, each point producing one
  1024×2048 block of the output as the product of 1024 rows of A with 2048 columns of B, both operands narrowed to a
  shorter float format first and accumulated from zero. The reference is a single contraction of A with B over
  A's columns and B's rows.

  On the extended reals a change of float format is the identity and every sum is exact, so each block entry is
  Σ_c A(r, c) · B(c, s) for its own (r, s); the blocks tile the output; hence the kernel's output is the matrix
  product A · B (`Block.run`). The reference's contraction is the same sum entry by entry (`RefValue.dot_eq_prod`).
  Both sides sum the same 64 terms over the same index set, so no finiteness of the inputs is used.

  The three frame claims are the generated frame runs (the reference's is its generated run with the result
  dropped); the idealization rewrote nothing, so its claim is trivial.
-/
import proofs.«133202_j38276748542446_1_alg».proof.Defs
import proofs.«133202_j38276748542446_1_alg».proof.Proof.Gen.Kernel
import proofs.«133202_j38276748542446_1_alg».proof.Proof.Gen.Kernel.Skeleton
import proofs.«133202_j38276748542446_1_alg».proof.Proof.Gen.Kernel.Launch
import proofs.«133202_j38276748542446_1_alg».proof.Proof.Gen.Kernel.Points
import proofs.«133202_j38276748542446_1_alg».proof.Proof.Gen.Kernel.Frame
import proofs.«133202_j38276748542446_1_alg».proof.Proof.Gen.KernelIdeal
import proofs.«133202_j38276748542446_1_alg».proof.Proof.Gen.KernelIdeal.Skeleton
import proofs.«133202_j38276748542446_1_alg».proof.Proof.Gen.KernelIdeal.Launch
import proofs.«133202_j38276748542446_1_alg».proof.Proof.Gen.KernelIdeal.Points
import proofs.«133202_j38276748542446_1_alg».proof.Proof.Gen.KernelIdeal.Frame
import proofs.«133202_j38276748542446_1_alg».proof.Proof.Gen.ReferenceIdeal
import proofs.«133202_j38276748542446_1_alg».proof.Proof.Gen.Pre_finite_inputs
import proofs.«133202_j38276748542446_1_alg».proof.Proof.Gen.KernelIdeal.Value
import proofs.«133202_j38276748542446_1_alg».proof.Proof.Gen.ReferenceIdeal.Run
import proofs.«133202_j38276748542446_1_alg».proof.Proof.Block
import proofs.«133202_j38276748542446_1_alg».proof.Proof.Reference
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on A and B, the kernel ends with its output at A · B (the blocks tile the product) and
    the reference ends with its result at the contraction of A with B, which is A · B entry by entry. -/
theorem algebraic : Cert.algebraic_KernelIdeal_ReferenceIdeal := by
  intro m ρ m' ρ' _ hagree
  refine ⟨_, Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.dot_eq_prod _ _

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
